-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1000000 32) (main_arg2 : IVec S1000000 32) (main_arg3 : FVec F S64x128 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S128x64 : Shape := ⟨2, ![128, 64]⟩
abbrev S1x64 : Shape := ⟨2, ![1, 64]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 28
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x64, .f32⟩
  | .hbm, ⟨14, _⟩ => ⟨S_, .f32⟩
  | .hbm, ⟨15, _⟩ => ⟨S100000x64, .f32⟩
  | .hbm, ⟨16, _⟩ => ⟨S1000000x1, .i32⟩
  | .hbm, ⟨17, _⟩ => ⟨S100000x64, .f32⟩
  | .hbm, ⟨18, _⟩ => ⟨S_, .f32⟩
  | .hbm, ⟨19, _⟩ => ⟨S1000000, .f32⟩
  | .hbm, ⟨20, _⟩ => ⟨S_, .f32⟩
  | .hbm, ⟨21, _⟩ => ⟨S100000, .f32⟩
  | .hbm, ⟨22, _⟩ => ⟨S1000000x1, .i32⟩
  | .hbm, ⟨23, _⟩ => ⟨S100000, .f32⟩
  | .hbm, ⟨24, _⟩ => ⟨S100000x1, .f32⟩
  | .hbm, ⟨25, _⟩ => ⟨S128x64, .f32⟩
  | .hbm, ⟨26, _⟩ => ⟨S1x64, .f32⟩
  | .hbm, ⟨27, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  transposes_S64x128_S128x64_1_0 : S64x128.Transposes [1, 0] S128x64
  bcast_S64_S1x64_1 : S64.BroadcastsInDim S1x64 (![1] : Fin 1 → Fin S1x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  concatenates_S5000x64_S5000x64_S5000x128_d1 : Shape.Concatenates [S5000x64, S5000x64] S5000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x64, .f32⟩
  | .hbm, ⟨14, _⟩ => ⟨S_, .f32⟩
  | .hbm, ⟨15, _⟩ => ⟨S100000x64, .f32⟩
  | .hbm, ⟨16, _⟩ => ⟨S1000000x1, .i32⟩
  | .hbm, ⟨17, _⟩ => ⟨S100000x64, .f32⟩
  | .hbm, ⟨18, _⟩ => ⟨S_, .f32⟩
  | .hbm, ⟨19, _⟩ => ⟨S1000000, .f32⟩
  | .hbm, ⟨20, _⟩ => ⟨S_, .f32⟩
  | .hbm, ⟨21, _⟩ => ⟨S100000, .f32⟩
  | .hbm, ⟨22, _⟩ => ⟨S1000000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x128, .f32⟩
  | .hbm, ⟨31, _⟩ => ⟨S128x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  One graph-convolution layer with mean aggregation, one output entry at a time.

  A node has its own feature row `u` (64 numbers), the sum `s` of the feature rows sent to it along its incoming
  edges (64 numbers) and the number `d` of those edges. The layer lays `u` and the mean `s / max(d, 1)` end to end
  into a row of 128 numbers, takes the inner product of that row with one row `w` of the weights, adds the bias `β`
  and cuts the result off below at zero:

      entry u s d w β = max ((∑ a, (u ‖ s / max(d, 1)) a * w a) + β) 0

  on the extended reals. An output entry depends on ONE node's data and ONE output channel's weights, which is why
  the same function describes a block of rows and the whole array.

  Beside it, two facts about how arrays are laid out, used to read both programs at an index: two arrays of 64
  columns joined along the columns are, at column `a`, the first array for `a < 64` and the second at `a - 64`
  otherwise; a single column repeated across a row reads the column.
-/
import Idealize.ShloMosaic.Lib.Pipeline.Value
import Idealize.ShloMosaic.Lib.ValueIdx
import Idealize.ShloMosaic.PureOps.Ideal.Laws

noncomputable section

namespace Cert.MeanConv

open Idealize.ShloMosaic Idealize.ShloMosaic.ValueIdx

/-- Two rows of 64 laid end to end, read at a position of the 128. -/
def joined {α : Type} (u v : Fin 64 → α) (a : Fin 128) : α :=
  if h : a.val < 64 then u ⟨a.val, h⟩ else v ⟨a.val - 64, by have := a.isLt; omega⟩

/-- The number one, as the word both programs spell it with. -/
abbrev one : EReal := Ideal.ofBits .f32 0x3F800000#32
/-- The number zero, as the word both programs spell it with. -/
abbrev zero : EReal := Ideal.ofBits .f32 0x00000000#32

/-- One output entry of the layer: own features `u`, summed messages `s`, in-degree `d`, one row `w` of the
    weights, the bias `β`. -/
def entry (u s : Fin 64 → EReal) (d : EReal) (w : Fin 128 → EReal) (β : EReal) : EReal :=
  max ((∑ a : Fin 128, joined u (fun a' => Ideal.div (s a') (max d one)) a * w a) + β) zero

/-- Equal data give equal entries. -/
theorem entry_congr {u u' s s' : Fin 64 → EReal} {d d' : EReal} {w w' : Fin 128 → EReal} {β β' : EReal}
    (hu : u = u') (hs : s = s') (hd : d = d') (hw : w = w') (hβ : β = β') :
    entry u s d w β = entry u' s' d' w' β' := by
  subst hu hs hd hw hβ; rfl

/-- The layer's whole output, 100000 nodes by 64 channels: entry `(p, j)` from node `p`'s features `x`, summed
    messages `msg` and in-degree `deg`, row `j` of the weights `W` (64 by 128) and entry `j` of the bias `b`. -/
def layer (x msg : (⟨2, ![100000, 64]⟩ : Shape).Idx → EReal) (deg : (⟨1, ![100000]⟩ : Shape).Idx → EReal)
    (W : (⟨2, ![64, 128]⟩ : Shape).Idx → EReal) (b : (⟨1, ![64]⟩ : Shape).Idx → EReal) :
    (⟨2, ![100000, 64]⟩ : Shape).Idx → EReal :=
  fun i => entry (fun a => x (ix2 (i 0) a)) (fun a => msg (ix2 (i 0) a)) (deg (ix1 (i 0)))
    (fun a => W (ix2 (i 1) a)) (b (ix1 (i 1)))

/-- Two arrays of 64 columns joined along the columns, read at row `p` and column `a`: the first array's row
    for the first 64 columns, the second array's row after them. -/
theorem concat_cols_apply {α : Type} {n : Nat} (x₁ x₂ : (⟨2, ![n, 64]⟩ : Shape).Idx → α)
    (h : Shape.Concatenates [(⟨2, ![n, 64]⟩ : Shape), ⟨2, ![n, 64]⟩] ⟨2, ![n, 128]⟩ 1) (p : Fin n) (a : Fin 128) :
    concatenate ⟨2, ![n, 128]⟩ 1 [⟨⟨2, ![n, 64]⟩, x₁⟩, ⟨⟨2, ![n, 64]⟩, x₂⟩] h (ix2 p a)
      = joined (fun a' => x₁ (ix2 p a')) (fun a' => x₂ (ix2 p a')) a := by
  unfold joined
  split
  · next hlt =>
    exact concatenate_pair_apply_left 1 x₁ x₂ h (ix2 p a) rfl (ix2 p ⟨a.val, hlt⟩)
      (fun b => match b with | ⟨0, _⟩ => rfl | ⟨1, _⟩ => rfl)
  · next hge =>
    exact concatenate_pair_apply_right 1 x₁ x₂ h (ix2 p a) rfl rfl (ix2 p ⟨a.val - 64, by have := a.isLt; omega⟩)
      (fun b hb => match b, hb with | ⟨0, _⟩, _ => rfl | ⟨1, _⟩, hb => absurd rfl hb)
      (by show a.val - 64 + 64 = a.val; omega)

/-- A single column repeated across `b` columns reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.MeanConv

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelEntry.lean ====
/-
  The kernel's arithmetic at one entry of a block of 5000 rows.

  At a grid point the body holds a block `x0` of the nodes' own features, the matching block `x1` of their summed
  messages, the block `x2` of their in-degrees (one column), the transposed weights `x3` (128 by 64) and the bias
  `x4` (one row). It divides each message row by `max(degree, 1)`, lays own features and that mean side by side,
  narrows both factors to sixteen bits (the identity on the extended reals), multiplies by the transposed weights
  into a zero accumulator, adds the bias row and takes the maximum with zero. Read at row `p` and column `j` this
  is `MeanConv.entry` of row `p` of the three blocks, column `j` of the transposed weights and entry `j` of the
  bias: the matrix product is the sum over the 128 joined positions (four coordinate facts of the product's
  dimension numbers say which coordinate is the row, the column and the summed one), and the bias and degree
  broadcasts read their single row and single column.
-/
import proofs.«165005_j50448685859137_1_alg».proof.Proof.Gen.KernelIdeal.Skeleton
import proofs.«165005_j50448685859137_1_alg».proof.Proof.Spec
import proofs.«165005_j50448685859137_1_alg».proof.Proof.LibDot2
import Idealize.ShloMosaic.Lib.ValueLayout

noncomputable section

namespace Cert.KernelIdeal.Entry

open Cert.KernelIdeal Cert.KernelIdeal.Gen Idealize.ShloMosaic Idealize.ShloMosaic.ValueIdx Cert.MeanConv

/-- The left factor's row is the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left factor's column is the summed position. -/
theorem lhs_contracted (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right factor's row is the summed position. -/
theorem rhs_contracted (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right factor's column is the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at row `p`, column `j` of the block is the layer's entry for that node and channel. -/
theorem payload_entry (x2 : Vec Ideal S5000x1 .f32) (x1 x0 : Vec Ideal S5000x64 .f32) (x3 : Vec Ideal S128x64 .f32)
    (x4 : Vec Ideal S1x64 .f32) (p : Fin 5000) (j : Fin 64) :
    k0_pay1 x2 x1 x0 x3 x4 (ix2 p j)
      = entry (fun a => x0 (ix2 p a)) (fun a => x1 (ix2 p a)) (x2 (ix2 p (0 : Fin 1))) (fun a => x3 (ix2 a j)) (x4 (ix2 (0 : Fin 1) j)) := by
  unfold k0_pay1 entry
  simp only [shapeCast_self]
  rw [maximumf_apply, addf_apply,
    Cert.Lib.Dot2.matmul_zero_ix2 dot_S5000x128_S128x64_S5000x64_1_0_0_1_n_n none rfl rfl lhs_row lhs_contracted rhs_contracted rhs_col _ _ p j,
    broadcastTo_1b_ab_apply, broadcast_apply]
  -- the sum's terms: the joined row times the weight
  refine congrArg₂ max (congrArg₂ (· + ·) (Finset.sum_congr rfl fun a _ => ?_) rfl) rfl
  rw [truncf_apply, truncf_apply, concat_cols_apply]
  congr 2
  funext a'
  -- the mean: the message entry over max(degree, 1), the degree read from its one column
  rw [divf_apply, shapeCast_self, broadcastTo_a1_ab_apply, maximumf_apply, shapeCast_self, broadcast_apply]
  rfl

end Cert.KernelIdeal.Entry

end
-- ==== Proof.KernelBlocks.lean ====
/-
  From blocks to the array: what each grid point writes back, and the output array after the run.

  The grid has twenty points; point `t` works on rows `5000 t … 5000 t + 4999` of the three row-blocked inputs
  and of the output, and on the whole of the transposed weights and of the bias row. Stated for ARBITRARY contents
  of the five input arrays (features, summed messages, degree column, transposed weights, bias row), so that
  nothing here depends on how the host computed them: the block written back at point `t` is that block of
  `MeanConv.layer`, the twenty blocks cover the output array, and so the array ends holding `MeanConv.layer`.
-/
import proofs.«165005_j50448685859137_1_alg».proof.Proof.Gen.KernelIdeal.Value
import proofs.«165005_j50448685859137_1_alg».proof.Proof.KernelEntry
import Idealize.ShloMosaic.Lib.ValueLayout

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx Cert.MeanConv

variable (m : (ℓ : Loc nD τ sig) → Buf (Elt Ideal) ℓ)

theorem hz : (![0, 0] : Fin 2 → Nat) = fun _ => 0 := funext fun a => by fin_cases a <;> rfl

/-- The block indices at a grid point, decided over the twenty points: the three row-blocked inputs and the
    output are at block `t` of their rows, the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Grid point `t` writes back rows `5000 t … 5000 t + 4999` of the layer's output, whatever arrays the region
    finds — features `X`, summed messages `M`, the degrees `D` as one column, the weights `W` transposed, the bias
    `B` as one row. At row `p` of the block the body computed the entry of node `5000 t + p`: its features, summed
    messages and degree are row `p` of the three row blocks (a block's row `p` is the array's row
    `5000 t + p`); the transposed weights read at `(a, j)` are the weights at `(j, a)`, the bias row at `j` the
    bias at `j`, the degree column at a row that row's degree. -/
theorem flushed_of (c : Dev nD) (t : Fin cfg0.N)
    (X M : S100000x64.Idx → EReal) (D : S100000.Idx → EReal) (W : S64x128.Idx → EReal) (B : S64.Idx → EReal)
    (h0 : V m c (Pipeline.arrRef spec0 0) = X) (h1 : V m c (Pipeline.arrRef spec0 1) = M)
    (h2 : V m c (Pipeline.arrRef spec0 2) = broadcastInDim S100000x1 ![0] bcast_S100000_S100000x1_0 D)
    (h3 : V m c (Pipeline.arrRef spec0 3) = transpose S128x64 [1, 0] W transposes_S64x128_S128x64_1_0)
    (h4 : V m c (Pipeline.arrRef spec0 4) = broadcastInDim S1x64 ![1] bcast_S64_S1x64_1 B) :
    (dats m 0 c).flushed 5 t = ((cfg0.win 5).blk t).view.read (Elt Ideal) (layer X M D W B) := by
  rw [Value.flushed5]
  unfold out0_5 iblk
  rw [h0, h1, h2, h3, h4, View.canon_unit_zero hz]
  simp only [View.ld_unit_zero (S := S5000x1) hz, View.ld_unit_zero (S := S5000x64) hz,
    View.ld_unit_zero (S := S128x64) hz, View.ld_unit_zero (S := S1x64) hz]
  obtain ⟨a0, a1, b0, b1, c0, c1, d0, d1, f0, f1, e0, e1⟩ := idx_facts t
  have ht : t.val < 20 := lt_of_lt_of_eq t.isLt N_0
  funext y
  obtain ⟨p, j, rfl⟩ : ∃ (p : Fin 5000) (j : Fin 64), y = ix2 p j := ⟨y 0, y 1, eq_ix2 y⟩
  -- the node this row of the block belongs to
  have hq : t.val * 5000 + p.val < 100000 := by have := p.isLt; omega
  have hemb : ((cfg0.win 5).blk t).view.emb (ix2 p j) = ix2 (⟨t.val * 5000 + p.val, hq⟩ : Fin 100000) j :=
    funext fun d => Fin.ext (by
      match d with
      | ⟨0, _⟩ => show win0_5.index t (0 : Fin 2) * 5000 + 1 * p.val = t.val * 5000 + p.val; omega
      | ⟨1, _⟩ => show win0_5.index t (1 : Fin 2) * 64 + 1 * j.val = j.val; omega)
  show k0_pay1 (F := Ideal) _ _ _ _ _ (ix2 p j) = layer X M D W B (((cfg0.win 5).blk t).view.emb (ix2 p j))
  rw [hemb]
  refine (Entry.payload_entry _ _ _ _ _ p j).trans ?_
  show entry _ _ _ _ _ = entry (fun a => X (ix2 (⟨t.val * 5000 + p.val, hq⟩ : Fin 100000) a))
    (fun a => M (ix2 (⟨t.val * 5000 + p.val, hq⟩ : Fin 100000) a)) (D (ix1 (⟨t.val * 5000 + p.val, hq⟩ : Fin 100000)))
    (fun a => W (ix2 j a)) (B (ix1 j))
  refine entry_congr (funext fun a => ?_) (funext fun a => ?_) ?_ (funext fun a => ?_) ?_
  · rw [View.read_apply]
    exact congrArg X (funext fun d => Fin.ext (by
      match d with
      | ⟨0, _⟩ => show win0_0.index t (0 : Fin 2) * 5000 + 1 * p.val = t.val * 5000 + p.val; omega
      | ⟨1, _⟩ => show win0_0.index t (1 : Fin 2) * 64 + 1 * a.val = a.val; omega))
  · rw [View.read_apply]
    exact congrArg M (funext fun d => Fin.ext (by
      match d with
      | ⟨0, _⟩ => show win0_1.index t (0 : Fin 2) * 5000 + 1 * p.val = t.val * 5000 + p.val; omega
      | ⟨1, _⟩ => show win0_1.index t (1 : Fin 2) * 64 + 1 * a.val = a.val; omega))
  · rw [View.read_apply]
    exact broadcastInDim_apply _ bcast_S100000_S100000x1_0 D _ (ix1 (⟨t.val * 5000 + p.val, hq⟩ : Fin 100000)) (fun ax => match ax with
      | ⟨0, _⟩ => by
        show t.val * 5000 + p.val = if (100000 : Nat) = 1 then 0 else win0_2.index t (0 : Fin 2) * 5000 + 1 * p.val
        rw [if_neg (by decide)]; omega)
  · rw [View.read_apply]
    have hw : ((cfg0.win 3).blk t).view.emb (ix2 a j) = ix2 a j := funext fun d => Fin.ext (by
      match d with
      | ⟨0, _⟩ => show win0_3.index t (0 : Fin 2) * 128 + 1 * a.val = a.val; omega
      | ⟨1, _⟩ => show win0_3.index t (1 : Fin 2) * 64 + 1 * j.val = j.val; omega)
    rw [hw]
    exact transpose_ix2_apply W transposes_S64x128_S128x64_1_0 a j
  · rw [View.read_apply]
    have hb : ((cfg0.win 4).blk t).view.emb (ix2 (0 : Fin 1) j) = ix2 (0 : Fin 1) j := funext fun d => Fin.ext (by
      match d with
      | ⟨0, _⟩ => show win0_4.index t (0 : Fin 2) * 1 + 1 * 0 = 0; omega
      | ⟨1, _⟩ => show win0_4.index t (1 : Fin 2) * 64 + 1 * j.val = j.val; omega)
    rw [hb]
    exact broadcastInDim_apply _ bcast_S64_S1x64_1 B (ix2 (0 : Fin 1) j) (ix1 j) (fun ax => match ax with
      | ⟨0, _⟩ => by show j.val = if (64 : Nat) = 1 then 0 else j.val; rw [if_neg (by decide)])

/-- An index of the output array is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v17).slice (win0_5.rect t)).set ↔ _
  rw [View.set_slice_whole, Rect.mem_set_unit]
  exact Iff.rfl

/-- Every row of the output array is in the block of the point `row / 5000`, which writes back. -/
theorem cover (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  have hN : cfg0.N = 20 := N_0
  have hlt : (i 0).val / 5000 < cfg0.N := by rw [hN]; omega
  obtain ⟨-, -, -, -, -, -, -, -, -, -, e0, e1⟩ := idx_facts ⟨(i 0).val / 5000, hlt⟩
  refine ⟨⟨(i 0).val / 5000, hlt⟩, flush0_5 _, ?_⟩
  rw [mem_block]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    have e0' : win0_5.index ⟨(i 0).val / 5000, hlt⟩ (0 : Fin 2) = (i 0).val / 5000 := e0
    omega
  | ⟨1, _⟩ =>
    show win0_5.index ⟨(i 0).val / 5000, hlt⟩ (1 : Fin 2) * 64 ≤ (i 1).val
      ∧ (i 1).val < win0_5.index ⟨(i 0).val / 5000, hlt⟩ (1 : Fin 2) * 64 + 64
    omega

/-- THE OUTPUT ARRAY after the run is the layer of the arrays the region found. -/
theorem final_of (c : Dev nD)
    (X M : S100000x64.Idx → EReal) (D : S100000.Idx → EReal) (W : S64x128.Idx → EReal) (B : S64.Idx → EReal)
    (h0 : V m c (Pipeline.arrRef spec0 0) = X) (h1 : V m c (Pipeline.arrRef spec0 1) = M)
    (h2 : V m c (Pipeline.arrRef spec0 2) = broadcastInDim S100000x1 ![0] bcast_S100000_S100000x1_0 D)
    (h3 : V m c (Pipeline.arrRef spec0 3) = transpose S128x64 [1, 0] W transposes_S64x128_S128x64_1_0)
    (h4 : V m c (Pipeline.arrRef spec0 4) = broadcastInDim S1x64 ![1] bcast_S64_S1x64_1 B) :
    (dats m 0 c).arrAt 5 cfg0.N = layer X M D W B :=
  (dats m 0 c).arrAt_eq_of_cover 5 (layer X M D W B) (fun t _ => flushed_of m c t X M D W B h0 h1 h2 h3 h4) cover

end Cert.KernelIdeal.Blocks

end
-- ==== Proof.KernelHost.lean ====
/-
  What the kernel's host program computes before its one region, as terms of the arguments.

  Before the region the host gathers the feature row of each edge's source (a negative source index counted from
  the end), adds it into the row of the edge's destination starting from zeros (the summed messages), adds a one
  into the destination's entry starting from zeros (the in-degrees, then laid out as one column), transposes the
  weights and lays the bias out as one row. The region finds exactly these in the arrays its windows stage. The
  gather and the two scatter-adds are named here (`msgSum`, `inDeg`) and never opened: the reference computes
  them with the same operations.
-/
import proofs.«165005_j50448685859137_1_alg».proof.Proof.Gen.KernelIdeal.Frame
import Idealize.ShloMosaic.Lib.StableHlo.Run
import Idealize.ShloMosaic.PureOps.Ideal
import Idealize.ShloMosaic.Lib.Tactic

noncomputable section

open Idealize.ShloMosaic Idealize.ShloMosaic.TcCoe Idealize.SL.Sem
open Idealize.ShloMosaic.Pipeline (Dat)

namespace Cert.KernelIdeal.Host

open Cert.KernelIdeal Cert.KernelIdeal.Gen

variable (m : (ℓ : Loc nD τ sig) → Buf (Elt Ideal) ℓ)

/-! ## What the host computes before the region -/

/-- The messages summed per destination node: the features gathered at each edge's source (a negative source
    counted from the end) and added into the row of the edge's destination, from zeros. -/
def msgSum (x0 : (⟨S100000x64, .f32⟩ : BufTy).Contents (Elt Ideal)) (x1 x2 : (⟨S1000000, .i32⟩ : BufTy).Contents (Elt Ideal)) :
    (⟨S100000x64, .f32⟩ : BufTy).Contents (Elt Ideal) :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 x2)
    (Host.gather gather_S100000x64_S1000000x1_S1000000x64_1_0_n_n_0_1_164 x0
      (broadcastInDim S1000000x1 ![0] bcast_S1000000_S1000000x1_0
        (select (cmpi .slt x1 (broadcastInDim S1000000 ![] bcast_S_S1000000 (constantI S_ 32 0#32)))
          (addi x1 (broadcastInDim S1000000 ![] bcast_S_S1000000 (constantI S_ 32 100000#32))) x1)))

/-- The in-degrees: a one added into the entry of each edge's destination, from zeros. -/
def inDeg (x2 : (⟨S1000000, .i32⟩ : BufTy).Contents (Elt Ideal)) : (⟨S100000, .f32⟩ : BufTy).Contents (Elt Ideal) :=
  Host.scatterAdd (F := Ideal) scatter_S100000_S1000000x1_S1000000_n_0_0_1
    (broadcastInDim S100000 ![] bcast_S_S100000 (constant (F := Ideal) S_ .f32 0x00000000#32))
    (broadcastInDim S1000000x1 ![0] bcast_S1000000_S1000000x1_0 x2)
    (broadcastInDim S1000000 ![] bcast_S_S1000000 (constant (F := Ideal) S_ .f32 0x3F800000#32))

/-- The region finds the summed messages in its second window's array. -/
theorem V_msg (c : Dev nD) : (V m c main_v9 : S100000x64.Idx → EReal)
    = msgSum (m ((c : Thread nD τ).loc main_arg0)) (m ((c : Thread nD τ).loc main_arg1)) (m ((c : Thread nD τ).loc main_arg2)) := by
  dsimp only [Gen.V, Gen.hostOps0]; after_results; rfl

/-- The region finds the in-degrees, as one column, in its third window's array. -/
theorem V_deg (c : Dev nD) : (V m c main_v14 : S100000x1.Idx → EReal)
    = broadcastInDim S100000x1 ![0] bcast_S100000_S100000x1_0 (inDeg (m ((c : Thread nD τ).loc main_arg2))) := by
  dsimp only [Gen.V, Gen.hostOps0]; after_results; rfl

/-- The region finds the weights transposed in its fourth window's array. -/
theorem V_wt (c : Dev nD) : (V m c main_v15 : S128x64.Idx → EReal)
    = transpose S128x64 [1, 0] (m ((c : Thread nD τ).loc main_arg3) : S64x128.Idx → EReal) transposes_S64x128_S128x64_1_0 := by
  dsimp only [Gen.V, Gen.hostOps0]; after_results

/-- The region finds the bias, as one row, in its fifth window's array. -/
theorem V_bias (c : Dev nD) : (V m c main_v16 : S1x64.Idx → EReal)
    = broadcastInDim S1x64 ![1] bcast_S64_S1x64_1 (m ((c : Thread nD τ).loc main_arg4) : S64.Idx → EReal) := by
  dsimp only [Gen.V, Gen.hostOps0]; after_results

end Cert.KernelIdeal.Host

end
-- ==== Proof.RefLayer.lean ====
/-
  The reference computes the layer.

  Read one operation at a time, the reference's result at node `p` and channel `j` is `MeanConv.entry` of node
  `p`'s own features, its summed messages and its in-degree, of row `j` of the weights and of entry `j` of the bias.
  The summed messages and the in-degrees are kept as the reference's own gather-and-scatter stages and are not
  opened: the kernel computes them with the same host operations.
-/
import proofs.«165005_j50448685859137_1_alg».proof.Proof.Gen.ReferenceIdeal.Read
import proofs.«165005_j50448685859137_1_alg».proof.Proof.Spec

noncomputable section

namespace Cert.ReferenceIdeal.Layer

open Cert.ReferenceIdeal Cert.ReferenceIdeal.Gen Cert.ReferenceIdeal.Read Idealize.ShloMosaic Idealize.ShloMosaic.ValueIdx Cert.MeanConv

/-- The reference's result is the layer of the arguments, its own summed messages and in-degrees in the places of
    `msg` and `deg`: at `(p, j)` its matrix product is the sum over the 128 joined positions of node `p`'s joined
    row against row `j` of the weights (read through the transpose), the mean is the message entry over
    `max(degree, 1)` (the degree column and its repetition across the row read node `p`'s degree), the bias row's
    repetition reads entry `j`, and the final maximum is with zero. -/
theorem result_eq (x0 : (⟨S100000x64, .f32⟩ : BufTy).Contents (Elt Ideal)) (x1 x2 : (⟨S1000000, .i32⟩ : BufTy).Contents (Elt Ideal))
    (x3 : (⟨S64x128, .f32⟩ : BufTy).Contents (Elt Ideal)) (x4 : (⟨S64, .f32⟩ : BufTy).Contents (Elt Ideal)) :
    val_main_v25 (F := Ideal) x0 x1 x2 x3 x4
      = layer x0 (val_main_v9 (F := Ideal) x0 x1 x2) (val_main_v13 (F := Ideal) x2) x3 x4 := by
  funext i
  obtain ⟨p, j, rfl⟩ : ∃ (p : Fin 100000) (j : Fin 64), i = ix2 p j := ⟨i 0, i 1, eq_ix2 i⟩
  rw [val_main_v25_apply, val_main_v24_apply, val_main_v21_apply, val_main_v23_apply, val_main_v22_apply,
    val_main_call0_v0_apply, val_main_call0_cst_apply]
  unfold layer entry
  show max ((∑ k : Fin 128, _) + _) _ = _
  refine congrArg₂ max (congrArg₂ (· + ·) (Finset.sum_congr rfl fun a _ => ?_) ?_) rfl
  · have hl : lidx_main_v21 (ix2 p j) a = ix2 p a :=
      funext fun d => Fin.ext (by match d with | ⟨0, _⟩ => rfl | ⟨1, _⟩ => rfl)
    have hr : ridx_main_v21 (ix2 p j) a = ix2 a j :=
      funext fun d => Fin.ext (by match d with | ⟨0, _⟩ => rfl | ⟨1, _⟩ => rfl)
    have ht : idx_main_v20 (ix2 a j) = ix2 j a :=
      funext fun d => Fin.ext (by match d with | ⟨0, _⟩ => rfl | ⟨1, _⟩ => rfl)
    rw [hl, hr, val_main_v20_apply, ht]
    unfold val_main_v19
    rw [concat_cols_apply]
    refine congrArg (fun z => z * _) (congrArg (fun v => joined _ v a) (funext fun a' => ?_))
    have hd : idx_main_v16 (idx_main_v17 (ix2 p a')) = ix1 p :=
      funext fun d => Fin.ext (by match d with | ⟨0, _⟩ => rfl)
    rw [val_main_v18_apply, val_main_v17_apply, val_main_v16_apply, val_main_v15_apply, val_main_v14_apply,
      val_main_cst_3_apply, hd]
    rfl
  · have hb : idx_main_v22 (idx_main_v23 (ix2 p j)) = ix1 j :=
      funext fun d => Fin.ext (by match d with | ⟨0, _⟩ => rfl)
    rw [hb]

end Cert.ReferenceIdeal.Layer

end
-- ==== Proof.KernelLayer.lean ====
/-
  The kernel's result, and that it is the reference's.

  The region finds the features as launched and the host's summed messages, degree column, transposed weights
  and bias row in its five input arrays, so after the run the output array is `MeanConv.layer` of the arguments
  with the host's summed messages and in-degrees. The reference's own summed messages and in-degrees are the same
  terms of the arguments — the same gather and scatter-adds with the same dimension numbers and the same
  constants —, so the two results are one function of the arguments.
-/
import proofs.«165005_j50448685859137_1_alg».proof.Proof.KernelBlocks
import proofs.«165005_j50448685859137_1_alg».proof.Proof.KernelHost
import proofs.«165005_j50448685859137_1_alg».proof.Proof.RefLayer

noncomputable section

open Idealize.ShloMosaic Idealize.ShloMosaic.TcCoe Idealize.SL.Sem

namespace Cert.KernelIdeal.Layer

open Cert.KernelIdeal Cert.KernelIdeal.Gen Cert.KernelIdeal.Value Cert.KernelIdeal.Host Cert.MeanConv

variable (m : (ℓ : Loc nD τ sig) → Buf (Elt Ideal) ℓ) (ρ : Dev nD → PrngReg)

/-- The layer's output from the arguments as launched. -/
abbrev result (c : Dev nD) : S100000x64.Idx → EReal :=
  layer (m ((c : Thread nD τ).loc main_arg0))
    (msgSum (m ((c : Thread nD τ).loc main_arg0)) (m ((c : Thread nD τ).loc main_arg1)) (m ((c : Thread nD τ).loc main_arg2)))
    (inDeg (m ((c : Thread nD τ).loc main_arg2))) (m ((c : Thread nD τ).loc main_arg3)) (m ((c : Thread nD τ).loc main_arg4))

/-- After the run the output array is the layer's output. -/
theorem final (c : Dev nD) : (dats m 0 c).arrAt 5 cfg0.N = result m c :=
  Blocks.final_of m c _ _ _ _ _ (V_main_arg0 m c) (V_msg m c) (V_deg m c) (V_wt m c) (V_bias m c)

/-- Every weakly fair execution of the kernel's program ends with the output array at the layer's output and the
    arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Layer

namespace Cert.ReferenceIdeal.Layer

/-- The reference's summed messages are the kernel host's: the same operations on the same arguments. -/
theorem msgSum_eq (x0 : (⟨Cert.ReferenceIdeal.S100000x64, .f32⟩ : BufTy).Contents (Elt Ideal))
    (x1 x2 : (⟨Cert.ReferenceIdeal.S1000000, .i32⟩ : BufTy).Contents (Elt Ideal)) :
    Cert.ReferenceIdeal.Read.val_main_v9 (F := Ideal) x0 x1 x2 = Cert.KernelIdeal.Host.msgSum x0 x1 x2 := rfl

/-- The reference's in-degrees are the kernel host's. -/
theorem inDeg_eq (x2 : (⟨Cert.ReferenceIdeal.S1000000, .i32⟩ : BufTy).Contents (Elt Ideal)) :
    Cert.ReferenceIdeal.Read.val_main_v13 (F := Ideal) x2 = Cert.KernelIdeal.Host.inDeg x2 := rfl

end Cert.ReferenceIdeal.Layer

end
-- ==== Proof.lean ====
/-
  A graph-convolution layer with mean aggregation: the kernel's program against its reference, over the
  extended reals.

  Both programs gather the feature row of each edge's source, add it into the row of the edge's destination (the
  summed messages) and count the edges into each destination (the in-degrees) with the same host operations. The
  kernel then runs over twenty blocks of 5000 nodes: it divides the summed messages by `max(degree, 1)`, lays own
  features and that mean side by side, multiplies by the transposed weights (both factors narrowed to sixteen bits,
  which changes nothing on the extended reals), adds the bias and cuts off below at zero. The reference does the
  same on the whole arrays with one matrix product. Entry `(p, j)` of either result is

      max ((∑ a < 128, (x_p ‖ msg_p / max(deg_p, 1)) a * W (j, a)) + b j) 0        (`MeanConv.entry`),

  so the two results are one function of the arguments (`MeanConv.layer`); no law beyond reading both programs at
  an index is used, and the precondition is never opened. The idealization rewrote no operation, so the
  preservation claim has nothing to state. The three frames are the generated ones (the reference's from its
  generated run).
-/
import proofs.«165005_j50448685859137_1_alg».proof.Defs
import proofs.«165005_j50448685859137_1_alg».proof.Proof.Gen.Kernel
import proofs.«165005_j50448685859137_1_alg».proof.Proof.Gen.Kernel.Skeleton
import proofs.«165005_j50448685859137_1_alg».proof.Proof.Gen.Kernel.Launch
import proofs.«165005_j50448685859137_1_alg».proof.Proof.Gen.Kernel.Points
import proofs.«165005_j50448685859137_1_alg».proof.Proof.Gen.Kernel.Frame
import proofs.«165005_j50448685859137_1_alg».proof.Proof.Gen.KernelIdeal
import proofs.«165005_j50448685859137_1_alg».proof.Proof.Gen.KernelIdeal.Skeleton
import proofs.«165005_j50448685859137_1_alg».proof.Proof.Gen.KernelIdeal.Launch
import proofs.«165005_j50448685859137_1_alg».proof.Proof.Gen.KernelIdeal.Points
import proofs.«165005_j50448685859137_1_alg».proof.Proof.Gen.KernelIdeal.Frame
import proofs.«165005_j50448685859137_1_alg».proof.Proof.Gen.ReferenceIdeal
import proofs.«165005_j50448685859137_1_alg».proof.Proof.Gen.Pre_finite_inputs
import proofs.«165005_j50448685859137_1_alg».proof.Proof.Gen.KernelIdeal.Value
import proofs.«165005_j50448685859137_1_alg».proof.Proof.Gen.ReferenceIdeal.Run
import proofs.«165005_j50448685859137_1_alg».proof.Proof.Gen.ReferenceIdeal.Read
import proofs.«165005_j50448685859137_1_alg».proof.Proof.KernelLayer
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the layer's output: the kernel's output array by its blocks,
    the reference's result read one operation at a time, their summed messages and in-degrees the same terms. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v25_eq _ _ _ _ _).trans ((Cert.ReferenceIdeal.Layer.result_eq _ _ _ _ _).trans ?_)
  rw [Cert.ReferenceIdeal.Layer.msgSum_eq, Cert.ReferenceIdeal.Layer.inDeg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
